-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x4 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x4 : Shape := ⟨2, ![2048, 4]⟩
abbrev S2048 : Shape := ⟨1, ![2048]⟩
abbrev S1x512x2048 : Shape := ⟨3, ![1, 512, 2048]⟩
abbrev S8x2048 : Shape := ⟨2, ![8, 2048]⟩
abbrev S512x2048 : Shape := ⟨2, ![512, 2048]⟩
abbrev S3x2048 : Shape := ⟨2, ![3, 2048]⟩
abbrev S515x2048 : Shape := ⟨2, ![515, 2048]⟩
abbrev S1x2048 : Shape := ⟨2, ![1, 2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x4, .f32⟩
  | .local _ .vmem, ⟨3, _⟩ => ⟨S2048, .f32⟩
  | .local _ .vmem, ⟨4, _⟩ => ⟨S1x512x2048, .f32⟩
  | .local _ .vmem, ⟨5, _⟩ => ⟨S1x512x2048, .f32⟩
  | .local _ .vmem, ⟨6, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S8x2048_o5_0_S3x2048 : S8x2048.Slices ![5, 0] S3x2048
  concatenates_S3x2048_S512x2048_S515x2048_d0 : Shape.Concatenates [S3x2048, S512x2048] S515x2048 0
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  slices_S515x2048_o0_0_S512x2048 : S515x2048.Slices ![0, 0] S512x2048
  inb_S2048x4_S2048x1_0_0 : ∀ a, (![0, 0] : Fin 2 → Nat) a + S2048x1.size a ≤ S2048x4.size a
  h_S2048x1 : 0 < S2048x1.numel
  shapeCasts_S2048x1_S2048 : S2048x1.ShapeCasts S2048
  slices_S515x2048_o1_0_S512x2048 : S515x2048.Slices ![1, 0] S512x2048
  inb_S2048x4_S2048x1_0_1 : ∀ a, (![0, 1] : Fin 2 → Nat) a + S2048x1.size a ≤ S2048x4.size a
  slices_S515x2048_o2_0_S512x2048 : S515x2048.Slices ![2, 0] S512x2048
  inb_S2048x4_S2048x1_0_2 : ∀ a, (![0, 2] : Fin 2 → Nat) a + S2048x1.size a ≤ S2048x4.size a
  slices_S515x2048_o3_0_S512x2048 : S515x2048.Slices ![3, 0] S512x2048
  inb_S2048x4_S2048x1_0_3 : ∀ a, (![0, 3] : Fin 2 → Nat) a + S2048x1.size a ≤ S2048x4.size a
  shapeCasts_S512x2048_S1x512x2048 : S512x2048.ShapeCasts S1x512x2048
  slices_S512x2048_o504_0_S8x2048 : S512x2048.Slices ![504, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2048x4.size a
  hwx0_1 : ∀ i : grid0.Coords, EltTy.bits .f32 = 32 ∨ (Rect.block (s := S2048x4) S2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x2048.size a
  hwx0_3 : ∀ i : grid0.Coords, EltTy.bits .f32 = 32 ∨ (Rect.block (s := S4x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩
abbrev S4x4099x2048 : Shape := ⟨3, ![4, 4099, 2048]⟩
abbrev S2048x1 : Shape := ⟨2, ![2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S4x4099x2048, .f32⟩
  | .hbm, ⟨6, _⟩ => ⟨S4x4096x2048, .f32⟩
  | .hbm, ⟨7, _⟩ => ⟨S2048x1, .f32⟩
  | .hbm, ⟨8, _⟩ => ⟨S2048, .f32⟩
  | .hbm, ⟨9, _⟩ => ⟨S1x1x2048, .f32⟩
  | .hbm, ⟨10, _⟩ => ⟨S4x4096x2048, .f32⟩
  | .hbm, ⟨11, _⟩ => ⟨S4x4096x2048, .f32⟩
  | .hbm, ⟨12, _⟩ => ⟨S1x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S2048x1, .f32⟩
  | .hbm, ⟨17, _⟩ => ⟨S2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S2048x1, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S2048x1, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.ConvSpec.lean ====
/-
  The mathematics both programs compute: a causal depthwise convolution with four taps along the time axis.
  For a batch `n`, a time `t` and a channel `d`,

      y[n, t, d] = b[d] + x̄[n, t-3, d]·w[d, 0] + x̄[n, t-2, d]·w[d, 1] + x̄[n, t-1, d]·w[d, 2] + x̄[n, t, d]·w[d, 3],

  where `x̄` is `x` extended by zero before time 0, the four products added to the bias from the oldest sample to the
  newest. Both programs add in exactly this order, so no law of the extended reals is needed to join them.
  The padded signal is indexed by PADDED time `s = time + 3`, as the reference's `pad` lays it out: `padded x n s d`
  is zero for `s < 3` and `x[n, s - 3, d]` from there on; tap `k` of the window ending at `t` is its entry `t + k`.
-/
import Idealize.ShloMosaic.PureOps.Ideal
import Idealize.ShloMosaic.Lib.ValueIdx

noncomputable section

open Idealize.ShloMosaic Idealize.ShloMosaic.ValueIdx

namespace Cert.ConvSpec

/-- The shape of the signal `x` and of the result: batch × time × channel. -/
abbrev XS : Shape := ⟨3, ![4, 4096, 2048]⟩
/-- The shape of the taps `w`: channel × tap. -/
abbrev WS : Shape := ⟨2, ![2048, 4]⟩
/-- The shape of the bias `b`: one entry per channel. -/
abbrev BS : Shape := ⟨1, ![2048]⟩

/-- The signal with three zeros before its start, at padded time `s` (time `s - 3`). -/
def padded (x : XS.Idx → EReal) (n : Fin 4) (s : Fin 4099) (d : Fin 2048) : EReal :=
  if h : 3 ≤ s.val then x (ix3 n (⟨s.val - 3, by have := s.isLt; omega⟩ : Fin 4096) d) else 0

/-- Tap `k` of the window that ends at time `t`: the sample at time `t + k - 3`, zero when that time is before the
    signal's start (the causal left padding). -/
def tap (x : XS.Idx → EReal) (n : Fin 4) (t : Fin 4096) (k : Fin 4) (d : Fin 2048) : EReal :=
  padded x n (⟨t.val + k.val, by have := t.isLt; have := k.isLt; omega⟩ : Fin 4099) d

/-- The convolution at one batch, time and channel: the bias plus the four products, oldest sample first. -/
def convAt (x : XS.Idx → EReal) (w : WS.Idx → EReal) (b : BS.Idx → EReal) (n : Fin 4) (t : Fin 4096) (d : Fin 2048) : EReal :=
  b (ix1 d) + tap x n t 0 d * w (ix2 d 0) + tap x n t 1 d * w (ix2 d 1) + tap x n t 2 d * w (ix2 d 2)
    + tap x n t 3 d * w (ix2 d 3)

/-- The whole result array. -/
def conv (x : XS.Idx → EReal) (w : WS.Idx → EReal) (b : BS.Idx → EReal) : XS.Idx → EReal :=
  fun i => convAt x w b (i 0) (i 1) (i 2)

theorem conv_apply (x : XS.Idx → EReal) (w : WS.Idx → EReal) (b : BS.Idx → EReal) (n : Fin 4) (t : Fin 4096) (d : Fin 2048) :
    conv x w b (ix3 n t d) = convAt x w b n t d := rfl

/-- The padded signal from padded time 3 on is the signal. -/
theorem padded_of_le (x : XS.Idx → EReal) (n : Fin 4) (s : Fin 4099) (d : Fin 2048) (q : Fin 4096)
    (h : q.val + 3 = s.val) : padded x n s d = x (ix3 n q d) := by
  have h3 : 3 ≤ s.val := by omega
  unfold padded
  rw [dif_pos h3]
  exact congrArg (fun z => x (ix3 n z d)) (Fin.ext (by show s.val - 3 = q.val; omega))

/-- The padded signal before padded time 3 is zero. -/
theorem padded_of_lt (x : XS.Idx → EReal) (n : Fin 4) (s : Fin 4099) (d : Fin 2048) (h : s.val < 3) :
    padded x n s d = 0 := by
  have h3 : ¬3 ≤ s.val := by omega
  unfold padded
  rw [dif_neg h3]

/-- A tap inside the signal reads the sample three back plus the tap's number. -/
theorem tap_of_le (x : XS.Idx → EReal) (n : Fin 4) (t : Fin 4096) (k : Fin 4) (d : Fin 2048) (q : Fin 4096)
    (h : q.val + 3 = t.val + k.val) : tap x n t k d = x (ix3 n q d) :=
  padded_of_le x n _ d q h

/-- A tap before the signal's start is zero. -/
theorem tap_of_lt (x : XS.Idx → EReal) (n : Fin 4) (t : Fin 4096) (k : Fin 4) (d : Fin 2048)
    (h : t.val + k.val < 3) : tap x n t k d = 0 :=
  padded_of_lt x n _ d h

end Cert.ConvSpec

end
-- ==== Proof.KernelPieces.lean ====
/-
  What one run of the kernel body leaves behind, in each of its two cases, as values.

  The body stores twice: the 512-row output tile, and the eight-row history buffer it carries to the next grid point
  (the last eight rows of the signal's tile it has just read). At the first tile of a batch (case A) it first overwrites
  the history with zeros and then reads those zeros back; elsewhere (case B) it reads the history the point before left.
  So in both cases the history afterwards is the tile's last eight rows, and the output tile is the body's arithmetic
  of: the signal's tile, the history it read (zeros in case A, the buffer's contents in case B), the bias, and the four
  one-column loads of the taps.
-/
import proofs.«178838_j78855599554935_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Column `k` of the taps' block as the body loads it: the one-column rectangle at `(0, k)`. -/
abbrev tapCol (x1 : Vec F S2048x4 .f32) (k : Nat) (inb : ∀ a, (![0, k] : Fin 2 → Nat) a + S2048x1.size a ≤ S2048x4.size a) :
    Vec F S2048x1 .f32 :=
  View.ld x1 (Rect.unit (s := S2048x4) ![0, k] S2048x1.size inb)

/-- CASE B, the history afterwards: the tile's last eight rows. -/
theorem sout_B (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (hc0 : ¬cond0_0 i)
    (x0 : Vec F S1x512x2048 .f32) (x1 : Vec F S2048x4 .f32) (x2 : Vec F S2048 .f32) (xs0 : Vec F S8x2048 .f32) :
    sout0_B_0 c i arg2 harg2 arg3 harg3 arg4 harg4 arg5 harg5 arg6 harg6 hc0 x0 x1 x2 xs0 = k0_pay2 (k0_pay4 x0) := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg2.read_unread, View.ld_unit_zero (S := S1x512x2048) hz3]

/-- CASE A, the history afterwards: the tile's last eight rows (the zeros stored first are overwritten). -/
theorem sout_A (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (hc0 : cond0_0 i)
    (x0 : Vec F S1x512x2048 .f32) (x1 : Vec F S2048x4 .f32) (x2 : Vec F S2048 .f32) :
    sout0_A_0 c i arg2 harg2 arg3 harg3 arg4 harg4 arg5 harg5 arg6 harg6 hc0 x0 x1 x2 = k0_pay2 (k0_pay4 x0) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S8x2048) hz2]
  simp only [View.readAt_eq_ld, harg2.read_unread, View.ld_unit_zero (S := S1x512x2048) hz3]

/-- CASE B, the output tile: the body's arithmetic of the signal's tile, the history the point before left, the bias and
    the taps' four columns. -/
theorem out_B (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (hc0 : ¬cond0_0 i)
    (x0 : Vec F S1x512x2048 .f32) (x1 : Vec F S2048x4 .f32) (x2 : Vec F S2048 .f32) (xs0 : Vec F S8x2048 .f32) :
    out0_B_3 c i arg2 harg2 arg3 harg3 arg4 harg4 arg5 harg5 arg6 harg6 hc0 x0 x1 x2 xs0
      = k0_pay1 (k0_pay5 x0 xs0 x2 (tapCol x1 0 inb_S2048x4_S2048x1_0_0) (tapCol x1 1 inb_S2048x4_S2048x1_0_1)
          (tapCol x1 2 inb_S2048x4_S2048x1_0_2) (tapCol x1 3 inb_S2048x4_S2048x1_0_3)) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S1x512x2048) hz3, View.ld_unit_zero (S := S8x2048) hz2, View.ld_unit_zero (S := S2048) hz1]

/-- CASE A, the output tile: the same arithmetic with the zeros just stored in place of the history. -/
theorem out_A (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S2048 .f32) (harg4 : arg4.IsWhole) (arg5 : Memref sig .tc .vmem S1x512x2048 .f32) (harg5 : arg5.IsWhole) (arg6 : Memref sig .tc .vmem S8x2048 .f32) (harg6 : arg6.IsWhole) (hc0 : cond0_0 i)
    (x0 : Vec F S1x512x2048 .f32) (x1 : Vec F S2048x4 .f32) (x2 : Vec F S2048 .f32) :
    out0_A_3 c i arg2 harg2 arg3 harg3 arg4 harg4 arg5 harg5 arg6 harg6 hc0 x0 x1 x2
      = k0_pay1 (k0_pay5 x0 (k0_pay3 (F := F)) x2 (tapCol x1 0 inb_S2048x4_S2048x1_0_0) (tapCol x1 1 inb_S2048x4_S2048x1_0_1)
          (tapCol x1 2 inb_S2048x4_S2048x1_0_2) (tapCol x1 3 inb_S2048x4_S2048x1_0_3)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x512x2048) hz3, View.ld_unit_zero (S := S2048) hz1, View.readCov_unit_zero (S := S8x2048) _ hz2]

end Cert.KernelIdeal.Pieces

end
-- ==== Proof.KernelTile.lean ====
/-
  One entry of the tile the kernel body stores, as a function of what the body loads.

  The body stacks the last three rows of the history buffer (rows 5, 6, 7 of its eight) on top of the 512 rows of the
  signal's tile: row `j` of that stack is history row `5 + j` for `j < 3` and tile row `j - 3` otherwise. Entry
  `(r, d)` of what it stores is the bias `b[d]` plus, for k = 0, 1, 2, 3 in this order, row `k + r` of the stack
  at channel `d` times the tap `w[d, k]` (column `k` of the taps, loaded as a one-column block).
-/
import proofs.«178838_j78855599554935_1_alg».proof.Proof.Gen.KernelIdeal.Skeleton
import proofs.«178838_j78855599554935_1_alg».proof.Proof.ConvSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem

namespace Cert.KernelIdeal.Tile

open Cert.KernelIdeal Cert.KernelIdeal.Gen

/-- Row `k + r` of the history's last three rows stacked on the tile, at channel `d`. -/
def stackRow (x0 : Vec Ideal S1x512x2048 .f32) (v5 : Vec Ideal S8x2048 .f32) (r : Fin 512) (k : Fin 4) (d : Fin 2048) : EReal :=
  if h : k.val + r.val < 3 then v5 (ix2 (⟨5 + (k.val + r.val), by omega⟩ : Fin 8) d)
  else x0 (ix3 (0 : Fin 1) (⟨k.val + r.val - 3, by have := r.isLt; have := k.isLt; omega⟩ : Fin 512) d)

/-- The slice of the stack that starts at row `k`, read at `(r, d)`. -/
theorem window_apply (x0 : Vec Ideal S1x512x2048 .f32) (v5 : Vec Ideal S8x2048 .f32) (k : Fin 4)
    (h5 : S8x2048.Slices ![5, 0] S3x2048) (hx : S1x512x2048.ShapeCasts S512x2048)
    (hc : Shape.Concatenates [S3x2048, S512x2048] S515x2048 0) (hs : S515x2048.Slices ![k.val, 0] S512x2048)
    (r : Fin 512) (d : Fin 2048) :
    extractStridedSlice S512x2048 ![k.val, 0]
        (concatenate S515x2048 0 [⟨S3x2048, extractStridedSlice S3x2048 ![5, 0] v5 h5⟩, ⟨S512x2048, shapeCast S512x2048 x0 hx⟩] hc)
        hs (ix2 r d)
      = stackRow x0 v5 r k d := by
  have hr := r.isLt
  have hk := k.isLt
  refine (extractStridedSlice_apply ![k.val, 0] _ hs (ix2 r d) (ix2 (⟨k.val + r.val, by omega⟩ : Fin 515) d) (fun a => match a with
    | ⟨0, _⟩ => rfl
    | ⟨1, _⟩ => by show d.val = 0 + d.val; omega)).trans ?_
  unfold stackRow
  by_cases h : k.val + r.val < 3
  · rw [dif_pos h]
    refine (concatenate_pair_apply_left (0 : Fin S515x2048.rank) _ _ hc _ rfl (ix2 (⟨k.val + r.val, h⟩ : Fin 3) d) (fun b => match b with
      | ⟨0, _⟩ => rfl
      | ⟨1, _⟩ => rfl)).trans ?_
    exact extractStridedSlice_apply ![5, 0] v5 h5 _ _ (fun a => match a with
      | ⟨0, _⟩ => rfl
      | ⟨1, _⟩ => by show d.val = 0 + d.val; omega)
  · rw [dif_neg h]
    refine (concatenate_pair_apply_right (0 : Fin S515x2048.rank) _ _ hc _ rfl rfl
      (ix2 (⟨k.val + r.val - 3, by omega⟩ : Fin 512) d)
      (fun b hb => match b, hb with
        | ⟨0, _⟩, hb => absurd (Fin.ext rfl) hb
        | ⟨1, _⟩, _ => rfl)
      (by show k.val + r.val - 3 + 3 = k.val + r.val; omega)).trans ?_
    exact shapeCast_1ab_ab_apply x0 hx _ d

/-- A vector over the channels laid out as one row and repeated down the 512 rows, read at `(r, d)`: entry `d`. -/
theorem row_apply (v : Vec Ideal S2048 .f32) (h1 : S2048.ShapeCasts S1x2048) (h2 : S1x2048.Broadcasts S512x2048)
    (r : Fin 512) (d : Fin 2048) :
    broadcastTo S512x2048 (shapeCast S1x2048 v h1) h2 (ix2 r d) = v (ix1 d) := by
  refine (broadcastTo_apply _ h2 (ix2 r d) (ix2 (0 : Fin 1) d) (fun a => match a with
    | ⟨0, _⟩ => by show 0 = if (1 : Nat) = 1 then 0 else r.val; rw [if_pos rfl]
    | ⟨1, _⟩ => by show d.val = if (2048 : Nat) = 1 then 0 else d.val; rw [if_neg (by decide)])).trans ?_
  exact shapeCast_a_1a_apply v h1 0 d

/-- A one-column block of taps flattened, laid out as one row and repeated down the rows, read at `(r, d)`: the
    column's entry `d`. -/
theorem col_apply (ck : Vec Ideal S2048x1 .f32) (h0 : S2048x1.ShapeCasts S2048) (h1 : S2048.ShapeCasts S1x2048)
    (h2 : S1x2048.Broadcasts S512x2048) (r : Fin 512) (d : Fin 2048) :
    broadcastTo S512x2048 (shapeCast S1x2048 (shapeCast S2048 ck h0) h1) h2 (ix2 r d) = ck (ix2 d (0 : Fin 1)) := by
  refine (row_apply _ h1 h2 r d).trans ?_
  exact shapeCast_apply ck h0 (ix1 d) (ix2 d (0 : Fin 1)) (by
    rw [Shape.rowMajor_val_two, Shape.rowMajor_val_one]
    show d.val * 1 + 0 = d.val
    omega)

/-- ENTRY `(r, d)` OF THE STORED TILE: the bias plus the four products, oldest row of the stack first. -/
theorem tile_apply (x0 : Vec Ideal S1x512x2048 .f32) (v5 : Vec Ideal S8x2048 .f32) (x2 : Vec Ideal S2048 .f32)
    (c0 c1 c2 c3 : Vec Ideal S2048x1 .f32) (u : Fin 1) (r : Fin 512) (d : Fin 2048) :
    k0_pay1 (k0_pay5 x0 v5 x2 c0 c1 c2 c3) (ix3 u r d)
      = x2 (ix1 d) + stackRow x0 v5 r 0 d * c0 (ix2 d (0 : Fin 1)) + stackRow x0 v5 r 1 d * c1 (ix2 d (0 : Fin 1))
          + stackRow x0 v5 r 2 d * c2 (ix2 d (0 : Fin 1)) + stackRow x0 v5 r 3 d * c3 (ix2 d (0 : Fin 1)) := by
  unfold k0_pay1 k0_pay5 k0_pay4
  refine (shapeCast_ab_1ab_apply _ _ u r d).trans ?_
  simp only [addf_apply, mulf_apply]
  refine congrArg₂ (· + ·) (congrArg₂ (· + ·) (congrArg₂ (· + ·) (congrArg₂ (· + ·) ?_ (congrArg₂ (· * ·) ?_ ?_))
    (congrArg₂ (· * ·) ?_ ?_)) (congrArg₂ (· * ·) ?_ ?_)) (congrArg₂ (· * ·) ?_ ?_)
  · exact row_apply x2 _ _ r d
  · exact window_apply x0 v5 0 _ _ _ _ r d
  · exact col_apply c0 _ _ _ r d
  · exact window_apply x0 v5 1 _ _ _ _ r d
  · exact col_apply c1 _ _ _ r d
  · exact window_apply x0 v5 2 _ _ _ _ r d
  · exact col_apply c2 _ _ _ r d
  · exact window_apply x0 v5 3 _ _ _ _ r d
  · exact col_apply c3 _ _ _ r d

/-- Column `k` of a block of taps loaded as a one-column rectangle, read at channel `d`: the tap `(d, k)`. -/
theorem tapCol_apply (X : Vec Ideal S2048x4 .f32) (k : Fin 4)
    (inb : ∀ a, (![0, k.val] : Fin 2 → Nat) a + S2048x1.size a ≤ S2048x4.size a) (d : Fin 2048) :
    View.ld X (Rect.unit (s := S2048x4) ![0, k.val] S2048x1.size inb) (ix2 d (0 : Fin 1)) = X (ix2 d k) :=
  congrArg X (funext fun a => Fin.ext (match a with
    | ⟨0, _⟩ => by show 0 + 1 * d.val = d.val; omega
    | ⟨1, _⟩ => by show k.val + 1 * 0 = k.val; omega))

/-- THE STACK IS THE PADDED SIGNAL. If the tile holds the signal's times `s0 .. s0 + 511` of batch `n` and the history's
    last three rows hold the padded signal's three entries just before the tile (padded times `s0 .. s0 + 2`), then row
    `k + r` of the stack is the padded signal at padded time `s0 + r + k`: tap `k` of the window ending at time `s0 + r`. -/
theorem stackRow_eq_tap (X : Cert.ConvSpec.XS.Idx → EReal) (n : Fin 4) (s0 : Nat) (hs0 : s0 + 512 ≤ 4096)
    (x0 : Vec Ideal S1x512x2048 .f32) (v5 : Vec Ideal S8x2048 .f32)
    (hx : ∀ (r : Fin 512) (d : Fin 2048), x0 (ix3 (0 : Fin 1) r d) = X (ix3 n (⟨s0 + r.val, by omega⟩ : Fin 4096) d))
    (hv : ∀ (j : Fin 3) (d : Fin 2048), v5 (ix2 (⟨5 + j.val, by omega⟩ : Fin 8) d)
      = Cert.ConvSpec.padded X n (⟨s0 + j.val, by omega⟩ : Fin 4099) d)
    (r : Fin 512) (k : Fin 4) (d : Fin 2048) (t : Fin 4096) (ht : t.val = s0 + r.val) :
    stackRow x0 v5 r k d = Cert.ConvSpec.tap X n t k d := by
  have hr := r.isLt
  have hk := k.isLt
  unfold stackRow Cert.ConvSpec.tap
  by_cases h : k.val + r.val < 3
  · rw [dif_pos h]
    refine (hv ⟨k.val + r.val, h⟩ d).trans ?_
    exact congrArg (fun z => Cert.ConvSpec.padded X n z d) (Fin.ext (by show s0 + (k.val + r.val) = t.val + k.val; omega))
  · rw [dif_neg h]
    refine (hx ⟨k.val + r.val - 3, by omega⟩ d).trans ?_
    exact (Cert.ConvSpec.padded_of_le X n _ d _ (by show s0 + (k.val + r.val - 3) + 3 = t.val + k.val; omega)).symm

/-- The rows the body carries to the next tile: the tile's last eight, row `504 + q` at row `q`. -/
theorem carry_apply (x0 : Vec Ideal S1x512x2048 .f32) (q : Fin 8) (d : Fin 2048) :
    k0_pay2 (k0_pay4 x0) (ix2 q d) = x0 (ix3 (0 : Fin 1) (⟨504 + q.val, by omega⟩ : Fin 512) d) := by
  unfold k0_pay2 k0_pay4
  refine (congrFun (shapeCast_self _ _) (ix2 q d)).trans ?_
  refine (extractStridedSlice_apply ![504, 0] _ _ (ix2 q d) (ix2 (⟨504 + q.val, by omega⟩ : Fin 512) d) (fun a => match a with
    | ⟨0, _⟩ => rfl
    | ⟨1, _⟩ => by show d.val = 0 + d.val; omega)).trans ?_
  exact shapeCast_1ab_ab_apply x0 _ _ d

/-- The history the body starts a batch with: all zero. -/
theorem reset_apply (j : S8x2048.Idx) : k0_pay3 (F := Ideal) j = (0 : EReal) := by
  unfold k0_pay3
  refine (congrFun (shapeCast_self _ _) j).trans ?_
  show Ideal.ofBits .f32 0x00000000#32 = 0
  exact Ideal.ofBits_zero_f32

end Cert.KernelIdeal.Tile

end
-- ==== Proof.KernelConv.lean ====
/-
  The kernel's result array is the convolution of `ConvSpec` of its argument arrays.

  The grid has 32 points; point `t` works on batch `t / 8` and on the tile of times `512·(t % 8) .. 512·(t % 8) + 511`.
  * After ANY point the history buffer holds the last eight rows of that point's tile — no induction is needed, both cases
    of the body end by storing them.
  * So at a point that is not the first tile of its batch, the history read is the previous point's last eight rows: the
    same batch, the eight times just before this tile; its last three rows are the padded signal's three entries before
    the tile. At the first tile of a batch the history read is zero: again the padded signal's three entries before the
    tile, which lie in the padding.
  * Hence entry `(r, d)` of the tile a point writes back is `convAt` at batch `t / 8`, time `512·(t % 8) + r`, channel
    `d`; the 32 blocks tile the array, so the array after the run is `conv` of the arguments.
-/
import proofs.«178838_j78855599554935_1_alg».proof.Proof.Gen.KernelIdeal.Value
import proofs.«178838_j78855599554935_1_alg».proof.Proof.KernelPieces
import proofs.«178838_j78855599554935_1_alg».proof.Proof.KernelTile
import proofs.«178838_j78855599554935_1_alg».proof.Proof.ConvSpec
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open Idealize.ShloMosaic.Pipeline (Dat)

namespace Cert.KernelIdeal.Conv

open Cert.KernelIdeal Cert.KernelIdeal.Gen Cert.KernelIdeal.Value Cert.KernelIdeal.Tile Cert.KernelIdeal.Pieces Cert.ConvSpec

variable (m : (ℓ : Loc nD τ sig) → Buf (Elt Ideal) ℓ) (ρ : Dev nD → PrngReg)

/-- The argument arrays as the region finds them, and each window's block at a point, at their literal types. -/
abbrev xarr (c : Dev nD) : Vec Ideal S4x4096x2048 .f32 := V m c main_arg0
abbrev warr (c : Dev nD) : Vec Ideal S2048x4 .f32 := V m c main_arg1
abbrev barr (c : Dev nD) : Vec Ideal S2048 .f32 := V m c main_arg2
abbrev xblk (c : Dev nD) (t : Fin cfg0.N) : Vec Ideal S1x512x2048 .f32 := iblk m c 0 t
abbrev wblk (c : Dev nD) (t : Fin cfg0.N) : Vec Ideal S2048x4 .f32 := iblk m c 1 t
abbrev bblk (c : Dev nD) (t : Fin cfg0.N) : Vec Ideal S2048 .f32 := iblk m c 2 t

/-- The printed index maps over the 32 points: the signal's and the result's block is (batch `t / 8`, tile `t % 8`, 0),
    the taps' and the bias's block is the whole array. -/
theorem idx_facts : ∀ t : Fin cfg0.N,
    win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_1.index t (0 : Fin 2) = 0 ∧ win0_1.index t (1 : Fin 2) = 0 ∧ win0_2.index t (0 : Fin 1) = 0 :=
  (by decide +kernel : ∀ t : Fin grid0.N,
    win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_1.index t (0 : Fin 2) = 0 ∧ win0_1.index t (1 : Fin 2) = 0 ∧ win0_2.index t (0 : Fin 1) = 0)

/-- The signal's block at point `t`: row `r` is time `512·(t % 8) + r` of batch `t / 8`. -/
theorem xblk_apply (c : Dev nD) (t : Fin cfg0.N) (u : Fin 1) (r : Fin 512) (d : Fin 2048) (n : Fin 4) (s : Fin 4096)
    (hn : n.val = t.val / 8) (hs : s.val = 512 * (t.val % 8) + r.val) :
    xblk m c t (ix3 u r d) = xarr m c (ix3 n s d) := by
  obtain ⟨e0, e1, e2, -⟩ := idx_facts t
  have hu := u.isLt
  show V m c main_arg0 (((cfg0.win 0).blk t).view.emb (ix3 u r d)) = V m c main_arg0 (ix3 n s d)
  refine congrArg (V m c main_arg0) (funext fun a => Fin.ext ?_)
  match a with
  | ⟨0, _⟩ => show win0_0.index t (0 : Fin 3) * 1 + 1 * u.val = n.val; omega
  | ⟨1, _⟩ => show win0_0.index t (1 : Fin 3) * 512 + 1 * r.val = s.val; omega
  | ⟨2, _⟩ => show win0_0.index t (2 : Fin 3) * 2048 + 1 * d.val = d.val; omega

/-- The taps' block at any point is the taps. -/
theorem wblk_apply (c : Dev nD) (t : Fin cfg0.N) (d : Fin 2048) (k : Fin 4) :
    wblk m c t (ix2 d k) = warr m c (ix2 d k) := by
  obtain ⟨-, -, -, -, -, -, e6, e7, -⟩ := idx_facts t
  show V m c main_arg1 (((cfg0.win 1).blk t).view.emb (ix2 d k)) = V m c main_arg1 (ix2 d k)
  refine congrArg (V m c main_arg1) (funext fun a => Fin.ext ?_)
  match a with
  | ⟨0, _⟩ => show win0_1.index t (0 : Fin 2) * 2048 + 1 * d.val = d.val; omega
  | ⟨1, _⟩ => show win0_1.index t (1 : Fin 2) * 4 + 1 * k.val = k.val; omega

/-- The bias's block at any point is the bias. -/
theorem bblk_apply (c : Dev nD) (t : Fin cfg0.N) (d : Fin 2048) :
    bblk m c t (ix1 d) = barr m c (ix1 d) := by
  obtain ⟨-, -, -, -, -, -, -, -, e8⟩ := idx_facts t
  show V m c main_arg2 (((cfg0.win 2).blk t).view.emb (ix1 d)) = V m c main_arg2 (ix1 d)
  refine congrArg (V m c main_arg2) (funext fun a => Fin.ext ?_)
  match a with
  | ⟨0, _⟩ => show win0_2.index t (0 : Fin 1) * 2048 + 1 * d.val = d.val; omega

/-- THE HISTORY AFTER ANY POINT: the last eight rows of that point's tile of the signal. -/
theorem carried (c : Dev nD) (t : Fin cfg0.N) :
    (outsAt0 m c t.val t.isLt).2 = k0_pay2 (k0_pay4 (xblk m c t)) := by
  by_cases h0 : t.val % 8 = 0
  · rw [outsAt0_A m c t h0]
    dsimp only
    exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (bblk m c t)
  · rw [outsAt0_B m c t h0]
    dsimp only
    exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (bblk m c t) _

/-- The tile a point stores, for ANY history `v5` whose last three rows are the padded signal's three entries just before
    the point's tile: entry `(r, d)` is the convolution at batch `t / 8`, time `512·(t % 8) + r`, channel `d`. -/
theorem tile_conv (c : Dev nD) (t : Fin cfg0.N) (v5 : Vec Ideal S8x2048 .f32) (n : Fin 4) (hn : n.val = t.val / 8)
    (hv : ∀ (j : Fin 3) (d : Fin 2048), v5 (ix2 (⟨5 + j.val, by omega⟩ : Fin 8) d)
      = padded (xarr m c) n (⟨512 * (t.val % 8) + j.val, by omega⟩ : Fin 4099) d)
    (u : Fin 1) (r : Fin 512) (d : Fin 2048) (s : Fin 4096) (hs : s.val = 512 * (t.val % 8) + r.val) :
    k0_pay1 (k0_pay5 (xblk m c t) v5 (bblk m c t) (tapCol (wblk m c t) 0 inb_S2048x4_S2048x1_0_0)
        (tapCol (wblk m c t) 1 inb_S2048x4_S2048x1_0_1) (tapCol (wblk m c t) 2 inb_S2048x4_S2048x1_0_2)
        (tapCol (wblk m c t) 3 inb_S2048x4_S2048x1_0_3)) (ix3 u r d)
      = convAt (xarr m c) (warr m c) (barr m c) n s d := by
  have hstack : ∀ k : Fin 4, stackRow (xblk m c t) v5 r k d = tap (xarr m c) n s k d := fun k =>
    stackRow_eq_tap (xarr m c) n (512 * (t.val % 8)) (by omega) (xblk m c t) v5
      (fun r' d' => xblk_apply m c t 0 r' d' n _ hn rfl) hv r k d s hs
  refine (tile_apply (xblk m c t) v5 (bblk m c t) _ _ _ _ u r d).trans ?_
  unfold convAt
  refine congrArg₂ (· + ·) (congrArg₂ (· + ·) (congrArg₂ (· + ·) (congrArg₂ (· + ·) ?_ (congrArg₂ (· * ·) ?_ ?_))
    (congrArg₂ (· * ·) ?_ ?_)) (congrArg₂ (· * ·) ?_ ?_)) (congrArg₂ (· * ·) ?_ ?_)
  · exact bblk_apply m c t d
  · exact hstack 0
  · exact (tapCol_apply (wblk m c t) 0 _ d).trans (wblk_apply m c t d 0)
  · exact hstack 1
  · exact (tapCol_apply (wblk m c t) 1 _ d).trans (wblk_apply m c t d 1)
  · exact hstack 2
  · exact (tapCol_apply (wblk m c t) 2 _ d).trans (wblk_apply m c t d 2)
  · exact hstack 3
  · exact (tapCol_apply (wblk m c t) 3 _ d).trans (wblk_apply m c t d 3)

/-- WHAT A POINT LEAVES IN THE OUTPUT'S STAGING BUFFER, entry by entry: the convolution on its tile. -/
theorem out_at (c : Dev nD) (t : Fin cfg0.N) (u : Fin 1) (r : Fin 512) (d : Fin 2048) (n : Fin 4) (s : Fin 4096)
    (hn : n.val = t.val / 8) (hs : s.val = 512 * (t.val % 8) + r.val) :
    (outsAt0 m c t.val t.isLt).1 (ix3 u r d) = convAt (xarr m c) (warr m c) (barr m c) n s d := by
  have hN : t.val < 32 := lt_of_lt_of_eq t.isLt (show cfg0.N = 32 from N_0)
  by_cases h0 : t.val % 8 = 0
  · -- the first tile of a batch: the history read is the zeros just stored, and the three padded entries are padding
    rw [outsAt0_A m c t h0]
    dsimp only
    refine (congrFun (out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (bblk m c t)) (ix3 u r d)).trans ?_
    exact tile_conv m c t (k0_pay3 (F := Ideal)) n hn
      (fun j d' => (reset_apply _).trans (padded_of_lt _ _ _ _ (by show 512 * (t.val % 8) + j.val < 3; have := j.isLt; omega)).symm)
      u r d s hs
  · -- a later tile: the history read is the previous point's last eight rows, the eight times before this tile
    have hp : t.val - 1 < cfg0.N := Nat.lt_of_le_of_lt (Nat.sub_le _ _) t.isLt
    rw [outsAt0_B m c t h0]
    dsimp only
    refine (congrFun (out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (bblk m c t)
      (outsAt0 m c (t.val - 1) hp).2) (ix3 u r d)).trans ?_
    refine tile_conv m c t _ n hn (fun j d' => ?_) u r d s hs
    have hj := j.isLt
    refine (congrFun (carried m c ⟨t.val - 1, hp⟩) _).trans ?_
    refine (carry_apply (xblk m c ⟨t.val - 1, hp⟩) (⟨5 + j.val, by omega⟩ : Fin 8) d').trans ?_
    refine (xblk_apply m c ⟨t.val - 1, hp⟩ 0 _ d' n (⟨512 * (t.val % 8) + j.val - 3, by omega⟩ : Fin 4096)
      (by show n.val = (t.val - 1) / 8; omega) (by show 512 * (t.val % 8) + j.val - 3 = 512 * ((t.val - 1) % 8) + (504 + (5 + j.val)); omega)).trans ?_
    exact (padded_of_le _ _ _ _ _ (by show 512 * (t.val % 8) + j.val - 3 + 3 = 512 * (t.val % 8) + j.val; omega)).symm

/-- Two tiles of the literal type that agree entry by entry are equal. -/
theorem tile_ext (A B : Vec Ideal S1x512x2048 .f32)
    (h : ∀ (u : Fin 1) (r : Fin 512) (d : Fin 2048), A (ix3 u r d) = B (ix3 u r d)) : A = B :=
  funext fun j => by rw [eq_ix3 j]; exact h _ _ _

/-- WHAT POINT `t` WRITES BACK is block `t` of the convolution of the argument arrays. -/
theorem flushed_eq (c : Dev nD) (t : Fin cfg0.N) :
    (dats m 0 c).flushed 3 t
      = ((cfg0.win 3).blk t).view.read (Elt Ideal) (conv (xarr m c) (warr m c) (barr m c)) := by
  have hN : t.val < 32 := lt_of_lt_of_eq t.isLt (show cfg0.N = 32 from N_0)
  obtain ⟨-, -, -, e3, e4, e5, -⟩ := idx_facts t
  rw [flushed3]
  refine tile_ext _ _ (fun u r d => ?_)
  have hu := u.isLt
  have hr := r.isLt
  show (outsAt0 m c t.val t.isLt).1 (ix3 u r d)
    = conv (xarr m c) (warr m c) (barr m c) (((cfg0.win 3).blk t).view.emb (ix3 u r d))
  refine (out_at m c t u r d ⟨t.val / 8, by omega⟩ ⟨512 * (t.val % 8) + r.val, by omega⟩ rfl rfl).trans ?_
  refine (conv_apply (xarr m c) (warr m c) (barr m c) ⟨t.val / 8, by omega⟩ ⟨512 * (t.val % 8) + r.val, by omega⟩ d).symm.trans ?_
  refine congrArg (conv (xarr m c) (warr m c) (barr m c)) (funext fun a => Fin.ext ?_)
  match a with
  | ⟨0, _⟩ => show t.val / 8 = win0_3.index t (0 : Fin 3) * 1 + 1 * u.val; omega
  | ⟨1, _⟩ => show 512 * (t.val % 8) + r.val = win0_3.index t (1 : Fin 3) * 512 + 1 * r.val; omega
  | ⟨2, _⟩ => show d.val = win0_3.index t (2 : Fin 3) * 2048 + 1 * d.val; omega

/-- An index of the array is in point `t`'s block iff each coordinate is in the block's range on its axis. -/
theorem mem_blk (t : Fin cfg0.N) (i : S4x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0).slice (win0_3.rect t)).set ↔ _
  rw [View.set_slice_whole, Rect.mem_set_unit]
  exact Iff.rfl

/-- Every index of the result lies in the block of the point (batch, tile) it belongs to. -/
theorem cover (i : S4x4096x2048.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 2048 := (i 2).isLt
  have hN : cfg0.N = 32 := N_0
  let t : Fin cfg0.N := ⟨8 * (i 0).val + (i 1).val / 512, by rw [hN]; omega⟩
  have htv : t.val = 8 * (i 0).val + (i 1).val / 512 := rfl
  obtain ⟨-, -, -, e3, e4, e5, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE ARRAY after the run: the convolution of the argument arrays as the region finds them. -/
theorem final (c : Dev nD) : (dats m 0 c).arrAt 3 cfg0.N = conv (xarr m c) (warr m c) (barr m c) :=
  (dats m 0 c).arrAt_eq_of_cover 3 (conv (xarr m c) (warr m c) (barr m c)) (fun t _ => flushed_eq m c t) cover

/-- The kernel's run: the result array ends at the convolution of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Conv

end
-- ==== Proof.RefConv.lean ====
/-
  The reference program computes the convolution of `ConvSpec`: its result, stage by stage, read at one batch, time and
  channel.

  The reference pads the signal with three zeros before time 0 and adds, to the bias broadcast over batch and time, the four
  products  (padded signal shifted by k) · (column k of the taps broadcast over batch and time),  k = 0, 1, 2, 3, in that
  order. At `(n, t, d)` the padded signal shifted by `k` is the sample at time `t + k - 3`, or the padding value
  — the integer zero converted, the real number 0 — when `t + k < 3`: tap `k` of `ConvSpec`.
-/
import proofs.«178838_j78855599554935_1_alg».proof.Proof.Gen.ReferenceIdeal.Read
import proofs.«178838_j78855599554935_1_alg».proof.Proof.ConvSpec
import Idealize.ShloMosaic.Lib.ValueIdx
import Idealize.ShloMosaic.Lib.Pipeline.Value
import Idealize.ShloMosaic.Lib.KernelVsHost

noncomputable section

open Idealize.ShloMosaic Idealize.ShloMosaic.ValueIdx Idealize.ShloMosaic.TcCoe Idealize.SL.Sem

namespace Cert.ReferenceIdeal.RefConv

open Cert.ReferenceIdeal Cert.ReferenceIdeal.Gen Cert.ReferenceIdeal.Read Cert.ConvSpec

/-- The padding value: the integer 0 converted to a float is the real number 0. -/
theorem pad_value (i : S_.Idx) : val_main_call0_v0 (F := Ideal) i = (0 : EReal) := by
  show ((((0#32 : BitVec 32).toInt : ℤ) : ℝ) : EReal) = 0
  simp

/-- The padded signal at batch `n`, padded time `k + t` and channel `d` is tap `k` of the window ending at `t`: three
    zeros come first, then the signal. -/
theorem padded_apply (x0 : FVec Ideal S4x4096x2048 .f32) (n : Fin 4) (t : Fin 4096) (k : Fin 4) (d : Fin 2048)
    (j : S4x4099x2048.Idx) (hj0 : (j 0).val = n.val) (hj1 : (j 1).val = k.val + t.val) (hj2 : (j 2).val = d.val) :
    val_main_v0 (F := Ideal) x0 j = tap x0 n t k d := by
  have ht := t.isLt
  have hk := k.isLt
  unfold val_main_v0
  by_cases h : 3 ≤ t.val + k.val
  · rw [tap_of_le x0 n t k d ⟨t.val + k.val - 3, by omega⟩ (by show t.val + k.val - 3 + 3 = t.val + k.val; omega)]
    exact pad_apply_of_inside ![0, 3, 0] ![0, 0, 0] ![0, 0, 0] x0 _ pads_S4x4096x2048_S4x4099x2048_000_300_000 h_S_ j
      (ix3 n ⟨t.val + k.val - 3, by omega⟩ d) (fun a => match a with
        | ⟨0, _⟩ => by show (j 0).val = 0 + n.val * (0 + 1); omega
        | ⟨1, _⟩ => by show (j 1).val = 3 + (t.val + k.val - 3) * (0 + 1); omega
        | ⟨2, _⟩ => by show (j 2).val = 0 + d.val * (0 + 1); omega)
  · rw [tap_of_lt x0 n t k d (by omega)]
    refine (pad_apply_of_not_inside ![0, 3, 0] ![0, 0, 0] ![0, 0, 0] x0 _ pads_S4x4096x2048_S4x4099x2048_000_300_000 h_S_ j
      ⟨1, by decide⟩ (fun hh => ?_)).trans (pad_value _)
    have h3 : 3 ≤ (j 1).val := hh.1
    omega

/-- The bias broadcast over batch and time, read at `(n, t, d)`: entry `d`. -/
theorem bias_apply (x2 : FVec Ideal S2048 .f32) (n : Fin 4) (t : Fin 4096) (d : Fin 2048) :
    val_main_v8 (F := Ideal) x2 (ix3 n t d) = x2 (ix1 d) := by
  rw [val_main_v8_apply, val_main_v7_apply]
  exact congrArg x2 (funext fun a => match a with | ⟨0, _⟩ => rfl)

/-- Column 0 of the taps broadcast over batch and time, read at `(n, t, d)`: the tap `w[d, 0]`. -/
theorem col0_apply (x1 : FVec Ideal S2048x4 .f32) (n : Fin 4) (t : Fin 4096) (d : Fin 2048) :
    val_main_v5 (F := Ideal) x1 (ix3 n t d) = x1 (ix2 d 0) := by
  rw [val_main_v5_apply, val_main_v4_apply, val_main_v3_apply, val_main_v2_apply]
  exact congrArg x1 (funext fun a => match a with
    | ⟨0, _⟩ => Fin.ext (by show d.val / 1 = d.val; exact Nat.div_one _)
    | ⟨1, _⟩ => rfl)

/-- Column 1 likewise: `w[d, 1]`. -/
theorem col1_apply (x1 : FVec Ideal S2048x4 .f32) (n : Fin 4) (t : Fin 4096) (d : Fin 2048) :
    val_main_v14 (F := Ideal) x1 (ix3 n t d) = x1 (ix2 d 1) := by
  rw [val_main_v14_apply, val_main_v13_apply, val_main_v12_apply, val_main_v11_apply]
  exact congrArg x1 (funext fun a => match a with
    | ⟨0, _⟩ => Fin.ext (by show d.val / 1 = d.val; exact Nat.div_one _)
    | ⟨1, _⟩ => rfl)

/-- Column 2 likewise: `w[d, 2]`. -/
theorem col2_apply (x1 : FVec Ideal S2048x4 .f32) (n : Fin 4) (t : Fin 4096) (d : Fin 2048) :
    val_main_v21 (F := Ideal) x1 (ix3 n t d) = x1 (ix2 d 2) := by
  rw [val_main_v21_apply, val_main_v20_apply, val_main_v19_apply, val_main_v18_apply]
  exact congrArg x1 (funext fun a => match a with
    | ⟨0, _⟩ => Fin.ext (by show d.val / 1 = d.val; exact Nat.div_one _)
    | ⟨1, _⟩ => rfl)

/-- Column 3 likewise: `w[d, 3]`. -/
theorem col3_apply (x1 : FVec Ideal S2048x4 .f32) (n : Fin 4) (t : Fin 4096) (d : Fin 2048) :
    val_main_v28 (F := Ideal) x1 (ix3 n t d) = x1 (ix2 d 3) := by
  rw [val_main_v28_apply, val_main_v27_apply, val_main_v26_apply, val_main_v25_apply]
  exact congrArg x1 (funext fun a => match a with
    | ⟨0, _⟩ => Fin.ext (by show d.val / 1 = d.val; exact Nat.div_one _)
    | ⟨1, _⟩ => rfl)

/-- The padded signal's slice starting at padded time 0, read at `(n, t, d)`: tap 0. -/
theorem shift0_apply (x0 : FVec Ideal S4x4096x2048 .f32) (n : Fin 4) (t : Fin 4096) (d : Fin 2048) :
    val_main_v1 (F := Ideal) x0 (ix3 n t d) = tap x0 n t 0 d := by
  rw [val_main_v1_apply]
  exact padded_apply x0 n t 0 d _ rfl (by show t.val = (0 : Fin 4).val + t.val; simp) rfl

/-- The slice starting at padded time 1: tap 1. -/
theorem shift1_apply (x0 : FVec Ideal S4x4096x2048 .f32) (n : Fin 4) (t : Fin 4096) (d : Fin 2048) :
    val_main_v10 (F := Ideal) x0 (ix3 n t d) = tap x0 n t 1 d := by
  rw [val_main_v10_apply]
  exact padded_apply x0 n t 1 d _ rfl (by show 1 + t.val = (1 : Fin 4).val + t.val; rfl) rfl

/-- The slice starting at padded time 2: tap 2. -/
theorem shift2_apply (x0 : FVec Ideal S4x4096x2048 .f32) (n : Fin 4) (t : Fin 4096) (d : Fin 2048) :
    val_main_v17 (F := Ideal) x0 (ix3 n t d) = tap x0 n t 2 d := by
  rw [val_main_v17_apply]
  exact padded_apply x0 n t 2 d _ rfl (by show 2 + t.val = (2 : Fin 4).val + t.val; rfl) rfl

/-- The slice starting at padded time 3: tap 3. -/
theorem shift3_apply (x0 : FVec Ideal S4x4096x2048 .f32) (n : Fin 4) (t : Fin 4096) (d : Fin 2048) :
    val_main_v24 (F := Ideal) x0 (ix3 n t d) = tap x0 n t 3 d := by
  rw [val_main_v24_apply]
  exact padded_apply x0 n t 3 d _ rfl (by show 3 + t.val = (3 : Fin 4).val + t.val; rfl) rfl

/-- The reference's result is the convolution of its arguments. -/
theorem result_eq (x0 : FVec Ideal S4x4096x2048 .f32) (x1 : FVec Ideal S2048x4 .f32) (x2 : FVec Ideal S2048 .f32) :
    val_main_v30 (F := Ideal) x0 x1 x2 = conv x0 x1 x2 := by
  funext i
  obtain ⟨n, t, d, rfl⟩ : ∃ (n : Fin 4) (t : Fin 4096) (d : Fin 2048), i = ix3 n t d := ⟨i 0, i 1, i 2, eq_ix3 i⟩
  rw [conv_apply]
  unfold convAt
  rw [val_main_v30_apply, val_main_v23_apply, val_main_v16_apply, val_main_v9_apply,
    val_main_v29_apply, val_main_v22_apply, val_main_v15_apply, val_main_v6_apply,
    bias_apply, col0_apply, col1_apply, col2_apply, col3_apply,
    shift0_apply, shift1_apply, shift2_apply, shift3_apply]
  rfl

end Cert.ReferenceIdeal.RefConv

end
-- ==== Proof.lean ====
/- The certificate of the causal depthwise convolution kernel against its reference.

   Both programs compute, at batch `n`, time `t` and channel `d`,
       b[d] + x̄[n,t-3,d]·w[d,0] + x̄[n,t-2,d]·w[d,1] + x̄[n,t-1,d]·w[d,2] + x̄[n,t,d]·w[d,3]
   with `x̄` the signal extended by zero before time 0 (`ConvSpec.conv`), the products added to the bias in this order.
   The kernel walks each batch's 4096 times in eight tiles of 512 and carries the last rows of a tile to the next one in
   a small buffer, zeroed at a batch's first tile: that buffer's last three rows are the three samples (or zeros) before
   the tile (`KernelConv`). The reference pads the time axis with three zeros and adds four shifted slices
   (`RefConv`). The two results are the same function of the arguments, so the claims follow: the three frames are the
   programs' runs with the results dropped, the idealization rewrote nothing, and the two runs end at `conv` of
   arguments that agree. -/
import proofs.«178838_j78855599554935_1_alg».proof.Defs
import proofs.«178838_j78855599554935_1_alg».proof.Proof.Gen.Kernel
import proofs.«178838_j78855599554935_1_alg».proof.Proof.Gen.Kernel.Skeleton
import proofs.«178838_j78855599554935_1_alg».proof.Proof.Gen.Kernel.Launch
import proofs.«178838_j78855599554935_1_alg».proof.Proof.Gen.Kernel.Points
import proofs.«178838_j78855599554935_1_alg».proof.Proof.Gen.Kernel.Frame
import proofs.«178838_j78855599554935_1_alg».proof.Proof.Gen.KernelIdeal
import proofs.«178838_j78855599554935_1_alg».proof.Proof.Gen.KernelIdeal.Skeleton
import proofs.«178838_j78855599554935_1_alg».proof.Proof.Gen.KernelIdeal.Launch
import proofs.«178838_j78855599554935_1_alg».proof.Proof.Gen.KernelIdeal.Points
import proofs.«178838_j78855599554935_1_alg».proof.Proof.Gen.KernelIdeal.Frame
import proofs.«178838_j78855599554935_1_alg».proof.Proof.Gen.ReferenceIdeal
import proofs.«178838_j78855599554935_1_alg».proof.Proof.Gen.Pre_finite_inputs
import proofs.«178838_j78855599554935_1_alg».proof.Proof.Gen.KernelIdeal.Value
import proofs.«178838_j78855599554935_1_alg».proof.Proof.Gen.ReferenceIdeal.Run
import proofs.«178838_j78855599554935_1_alg».proof.Proof.Gen.ReferenceIdeal.Read
import proofs.«178838_j78855599554935_1_alg».proof.Proof.ConvSpec
import proofs.«178838_j78855599554935_1_alg».proof.Proof.KernelConv
import proofs.«178838_j78855599554935_1_alg».proof.Proof.RefConv
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the convolution of arguments that agree. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefConv.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
